-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x128 : Shape := ⟨3, ![1024, 1, 128]⟩
abbrev S1024x200x128 : Shape := ⟨3, ![1024, 200, 128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1024x1x128 : S_.BroadcastsInDim S1024x1x128 (![] : Fin 0 → Fin S1024x1x128.rank)
  reducesTo_S1024x1x128_S_d0_1_2 : S1024x1x128.ReducesTo [0, 1, 2] S_
  h_S_ : 0 < S_.numel
  bcast_S_S1024x200x128 : S_.BroadcastsInDim S1024x200x128 (![] : Fin 0 → Fin S1024x200x128.rank)
  reducesTo_S1024x200x128_S_d0_1_2 : S1024x200x128.ReducesTo [0, 1, 2] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64x1 .f32) (main_arg5 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S1024x1x128 .f32) (main_arg1 : FVec F S1024x200x128 .f32) (main_arg2 : FVec F S512x64 .f32) (main_arg3 : FVec F S64 .f32) (main_arg4 : FVec F S64x1 .f32) (main_arg5 : FVec F S1 .f32) : IVec S_ 1 :=
  let main_v0 : FVec F S1024x1x128 .f32 := Host.absf main_arg0
  let main_cst : FVec F S_ .f32 := constant S_ .f32 0x7F800000#32
  let main_v1 : FVec F S1024x1x128 .f32 := broadcastInDim S1024x1x128 ![] bcast_S_S1024x1x128 main_cst
  let main_v2 : IVec S1024x1x128 1 := cmpf .olt main_v0 main_v1
  let main_c : IVec S_ 1 := constantI S_ 1 1#1
  let main_v3 : IVec S_ 1 := (fun x v => Host.reduce IntOp.andi x v reducesTo_S1024x1x128_S_d0_1_2 h_S_) main_v2 main_c
  let main_v4 : FVec F S1024x200x128 .f32 := Host.absf main_arg1
  let main_cst_0 : FVec F S_ .f32 := constant S_ .f32 0x7F800000#32
  let main_v5 : FVec F S1024x200x128 .f32 := broadcastInDim S1024x200x128 ![] bcast_S_S1024x200x128 main_cst_0
  let main_v6 : IVec S1024x200x128 1 := cmpf .olt main_v4 main_v5
  let main_c_1 : IVec S_ 1 := constantI S_ 1 1#1
  let main_v7 : IVec S_ 1 := (fun x v => Host.reduce IntOp.andi x v reducesTo_S1024x200x128_S_d0_1_2 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S1024x1x128 : Shape := ⟨3, ![1024, 1, 128]⟩
abbrev S1024x200x128 : Shape := ⟨3, ![1024, 200, 128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S1024x200x1 : Shape := ⟨3, ![1024, 200, 1]⟩
abbrev S32x1x128 : Shape := ⟨3, ![32, 1, 128]⟩
abbrev S32x200x128 : Shape := ⟨3, ![32, 200, 128]⟩
abbrev S32x200x1 : Shape := ⟨3, ![32, 200, 1]⟩
abbrev S6400x128 : Shape := ⟨2, ![6400, 128]⟩
abbrev S128x64 : Shape := ⟨2, ![128, 64]⟩
abbrev S6400x64 : Shape := ⟨2, ![6400, 64]⟩
abbrev S1x64 : Shape := ⟨2, ![1, 64]⟩
abbrev S6400x1 : Shape := ⟨2, ![6400, 1]⟩
abbrev S1x1 : Shape := ⟨2, ![1, 1]⟩

abbrev nBuf : Space → Nat
  | .hbm => 7
  | .vmem => 10
  | .smem => 0
  | _ => 0

abbrev bufTy : (tb : Table) → Fin (tcTables nBuf tb) → BufTy
  | .hbm, ⟨0, _⟩ => ⟨S1024x1x128, .f32⟩
  | .hbm, ⟨1, _⟩ => ⟨S1024x200x128, .f32⟩
  | .hbm, ⟨2, _⟩ => ⟨S512x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1024x200x1, .f32⟩
  | .local _ .vmem, ⟨0, _⟩ => ⟨S32x1x128, .f32⟩
  | .local _ .vmem, ⟨1, _⟩ => ⟨S32x1x128, .f32⟩
  | .local _ .vmem, ⟨2, _⟩ => ⟨S32x200x128, .f32⟩
  | .local _ .vmem, ⟨3, _⟩ => ⟨S32x200x128, .f32⟩
  | .local _ .vmem, ⟨4, _⟩ => ⟨S512x64, .f32⟩
  | .local _ .vmem, ⟨5, _⟩ => ⟨S64, .f32⟩
  | .local _ .vmem, ⟨6, _⟩ => ⟨S64x1, .f32⟩
  | .local _ .vmem, ⟨7, _⟩ => ⟨S1, .f32⟩
  | .local _ .vmem, ⟨8, _⟩ => ⟨S32x200x1, .f32⟩
  | .local _ .vmem, ⟨9, _⟩ => ⟨S32x200x1, .f32⟩
  | _, _ => ⟨S1024x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x200x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S32x1x128_S32x1x128_0_0_0 : ∀ a, (![0, 0, 0] : Fin 3 → Nat) a + S32x1x128.size a ≤ S32x1x128.size a
  h_S32x1x128 : 0 < S32x1x128.numel
  inb_S32x200x128_S32x200x128_0_0_0 : ∀ a, (![0, 0, 0] : Fin 3 → Nat) a + S32x200x128.size a ≤ S32x200x128.size a
  h_S32x200x128 : 0 < S32x200x128.numel
  shapeCasts_S32x1x128_S32x1x128 : S32x1x128.ShapeCasts S32x1x128
  broadcasts_S32x1x128_S32x200x128 : S32x1x128.Broadcasts S32x200x128
  shapeCasts_S32x200x128_S6400x128 : S32x200x128.ShapeCasts S6400x128
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  slices_S512x64_o0_0_S128x64 : S512x64.Slices ![0, 0] S128x64
  slices_S512x64_o128_0_S128x64 : S512x64.Slices ![128, 0] S128x64
  slices_S512x64_o256_0_S128x64 : S512x64.Slices ![256, 0] S128x64
  slices_S512x64_o384_0_S128x64 : S512x64.Slices ![384, 0] S128x64
  inb_S64_S64_0 : ∀ a, (![0] : Fin 1 → Nat) a + S64.size a ≤ S64.size a
  h_S64 : 0 < S64.numel
  shapeCasts_S64_S1x64 : S64.ShapeCasts S1x64
  broadcasts_S1x64_S6400x64 : S1x64.Broadcasts S6400x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S6400x1 : S1x1.Broadcasts S6400x1
  shapeCasts_S6400x1_S32x200x1 : S6400x1.ShapeCasts S32x200x1
  inb_S32x200x1_S32x200x1_0_0_0 : ∀ a, (![0, 0, 0] : Fin 3 → Nat) a + S32x200x1.size a ≤ S32x200x1.size a
  h_S32x200x1 : 0 < S32x200x1.numel
  dot_S6400x128_S128x64_S6400x64_1_0_0_1_n_n_wf : DotDims.WF S6400x128 S128x64 S6400x64 [1] [0] [0] [1] [] []
  dot_S6400x64_S64x1_S6400x1_1_0_0_1_n_n_wf : DotDims.WF S6400x64 S64x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x128.size a ≤ S1024x1x128.size a
  hwx0_0 : ∀ i : grid0.Coords, EltTy.bits .f32 = 32 ∨ (Rect.block (s := S1024x1x128) S32x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x128.size a ≤ S1024x200x128.size a
  hwx0_1 : ∀ i : grid0.Coords, EltTy.bits .f32 = 32 ∨ (Rect.block (s := S1024x200x128) S32x200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x200x1.size a ≤ S1024x200x1.size a
  hwx0_6 : ∀ i : grid0.Coords, EltTy.bits .f32 = 32 ∨ (Rect.block (s := S1024x200x1) S32x200x1.size (cc0_transform_6 i) (hinb0_6 i)).WholeWords (EltTy.packing .f32)

variable [Facts₀]

def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def dot_S6400x64_S64x1_S6400x1_1_0_0_1_n_n : DotDims S6400x64 S64x1 S6400x1 where
  lhsContracting := [1]
  rhsContracting := [0]
  lhsNonContracting := [0]
  rhsNonContracting := [1]
  lhsBatch := []
  rhsBatch := []
  wf := dot_S6400x64_S64x1_S6400x1_1_0_0_1_n_n_wf

abbrev win0_0 : Pipeline.Window sig grid0 :=
  Pipeline.Window.ofSpec (Memref.whole main_arg0) S32x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S32x200x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x1x128 : Shape := ⟨3, ![1024, 1, 128]⟩
abbrev S1024x200x128 : Shape := ⟨3, ![1024, 200, 128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S1024x200x512 : Shape := ⟨3, ![1024, 200, 512]⟩
abbrev S1024x200x64 : Shape := ⟨3, ![1024, 200, 64]⟩
abbrev S1x1x64 : Shape := ⟨3, ![1, 1, 64]⟩
abbrev S_ : Shape := ⟨0, ![]⟩
abbrev S1024x200x1 : Shape := ⟨3, ![1024, 200, 1]⟩
abbrev S1x1x1 : Shape := ⟨3, ![1, 1, 1]⟩

abbrev nBuf : Space → Nat
  | .hbm => 21
  | .vmem => 0
  | .smem => 0
  | _ => 0

abbrev bufTy : (tb : Table) → Fin (tcTables nBuf tb) → BufTy
  | .hbm, ⟨0, _⟩ => ⟨S1024x1x128, .f32⟩
  | .hbm, ⟨1, _⟩ => ⟨S1024x200x128, .f32⟩
  | .hbm, ⟨2, _⟩ => ⟨S512x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1024x200x128, .f32⟩
  | .hbm, ⟨7, _⟩ => ⟨S1024x200x128, .f32⟩
  | .hbm, ⟨8, _⟩ => ⟨S1024x200x128, .f32⟩
  | .hbm, ⟨9, _⟩ => ⟨S1024x200x512, .f32⟩
  | .hbm, ⟨10, _⟩ => ⟨S1024x200x64, .f32⟩
  | .hbm, ⟨11, _⟩ => ⟨S1x1x64, .f32⟩
  | .hbm, ⟨12, _⟩ => ⟨S1024x200x64, .f32⟩
  | .hbm, ⟨13, _⟩ => ⟨S1024x200x64, .f32⟩
  | .hbm, ⟨14, _⟩ => ⟨S_, .f32⟩
  | .hbm, ⟨15, _⟩ => ⟨S1024x200x64, .f32⟩
  | .hbm, ⟨16, _⟩ => ⟨S1024x200x64, .f32⟩
  | .hbm, ⟨17, _⟩ => ⟨S1024x200x1, .f32⟩
  | .hbm, ⟨18, _⟩ => ⟨S1x1x1, .f32⟩
  | .hbm, ⟨19, _⟩ => ⟨S1024x200x1, .f32⟩
  | .hbm, ⟨20, _⟩ => ⟨S1024x200x1, .f32⟩
  | _, _ => ⟨S1024x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S1024x1x128_S1024x200x128_0_1_2 : S1024x1x128.BroadcastsInDim S1024x200x128 (![0, 1, 2] : Fin 3 → Fin S1024x200x128.rank)
  concatenates_S1024x200x128_S1024x200x128_S1024x200x128_S1024x200x128_S1024x200x512_d2 : Shape.Concatenates [S1024x200x128, S1024x200x128, S1024x200x128, S1024x200x128] S1024x200x512 2
  bcast_S64_S1x1x64_2 : S64.BroadcastsInDim S1x1x64 (![2] : Fin 1 → Fin S1x1x64.rank)
  bcast_S1x1x64_S1024x200x64_0_1_2 : S1x1x64.BroadcastsInDim S1024x200x64 (![0, 1, 2] : Fin 3 → Fin S1024x200x64.rank)
  bcast_S_S1024x200x64 : S_.BroadcastsInDim S1024x200x64 (![] : Fin 0 → Fin S1024x200x64.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  dot_S1024x200x512_S512x64_S1024x200x64_2_0_01_1_n_n_wf : DotDims.WF S1024x200x512 S512x64 S1024x200x64 [2] [0] [0, 1] [1] [] []
  dot_S1024x200x64_S64x1_S1024x200x1_2_0_01_1_n_n_wf : DotDims.WF S1024x200x64 S64x1 S1024x200x1 [2] [0] [0, 1] [1] [] []

variable [Facts₀]

def dot_S1024x200x512_S512x64_S1024x200x64_2_0_01_1_n_n : DotDims S1024x200x512 S512x64 S1024x200x64 where
  lhsContracting := [2]
  rhsContracting := [0]
  lhsNonContracting := [0, 1]
  rhsNonContracting := [1]
  lhsBatch := []
  rhsBatch := []
  wf := dot_S1024x200x512_S512x64_S1024x200x64_2_0_01_1_n_n_wf
def dot_S1024x200x64_S64x1_S1024x200x1_2_0_01_1_n_n : DotDims S1024x200x64 S64x1 S1024x200x1 where
  lhsContracting := [2]
  rhsContracting := [0]
  lhsNonContracting := [0, 1]
  rhsNonContracting := [1]
  lhsBatch := []
  rhsBatch := []
  wf := dot_S1024x200x64_S64x1_S1024x200x1_2_0_01_1_n_n_wf

class Facts : Prop extends Facts₀ where

variable [Facts]
-- ==== Proof.RowScore.lean ====
/-
  One row of the attention scorer, as mathematics on the extended reals.

  A query row `q` and a key row `k` (128 entries each) give 512 features, laid end to end in four
  segments of 128: `q`, `k`, `q - k` and `q * k`.  The hidden layer has 64 units, unit `j` being
  `max (∑ d, feature d * W0 d j + b0 j) 0`; the score is `∑ j, hidden j * W1 j + b1`.

  `hiddenPre` writes the 512-term sum segment by segment (four sums of 128 terms, added left to
  right), and `sum_segments` is the one law used to compare it with a single 512-term sum: a sum over
  `Fin 512` is the sum of its four consecutive quarters.  The law holds in any commutative monoid, so on
  the extended reals it needs no finiteness.  `scores` is the whole result array, one `rowScore` per (batch, key) pair.
-/
import Idealize.ShloMosaic.PureOps.Ideal.Laws
import Idealize.ShloMosaic.Lib.ValueIdx

noncomputable section

namespace Cert.Scorer

open Idealize.ShloMosaic

/-- Position `e` of the first segment (the query's entries). -/
def seg0 (e : Fin 128) : Fin 512 := ⟨e.val, by have := e.isLt; omega⟩
/-- Position `e` of the second segment (the key's entries). -/
def seg1 (e : Fin 128) : Fin 512 := ⟨128 + e.val, by have := e.isLt; omega⟩
/-- Position `e` of the third segment (the differences). -/
def seg2 (e : Fin 128) : Fin 512 := ⟨256 + e.val, by have := e.isLt; omega⟩
/-- Position `e` of the fourth segment (the products). -/
def seg3 (e : Fin 128) : Fin 512 := ⟨384 + e.val, by have := e.isLt; omega⟩

/-- A sum over the 512 positions is the sum of its four consecutive quarters, added left to right. -/
theorem sum_segments {M : Type*} [AddCommMonoid M] (f : Fin 512 → M) :
    ∑ d : Fin 512, f d
      = ((∑ e : Fin 128, f (seg0 e) + ∑ e : Fin 128, f (seg1 e)) + ∑ e : Fin 128, f (seg2 e))
          + ∑ e : Fin 128, f (seg3 e) := by
  have h3 : ∑ d : Fin 512, f d
      = ∑ i : Fin 384, f (Fin.castAdd 128 i) + ∑ e : Fin 128, f (Fin.natAdd 384 e) :=
    Fin.sum_univ_add (a := 384) (b := 128) f
  have h2 : ∑ i : Fin 384, f (Fin.castAdd 128 i)
      = ∑ i : Fin 256, f (Fin.castAdd 128 (Fin.castAdd 128 i)) + ∑ e : Fin 128, f (Fin.castAdd 128 (Fin.natAdd 256 e)) :=
    Fin.sum_univ_add (a := 256) (b := 128) fun i : Fin 384 => f (Fin.castAdd 128 i)
  have h1 : ∑ i : Fin 256, f (Fin.castAdd 128 (Fin.castAdd 128 i))
      = ∑ e : Fin 128, f (Fin.castAdd 128 (Fin.castAdd 128 (Fin.castAdd 128 e)))
        + ∑ e : Fin 128, f (Fin.castAdd 128 (Fin.castAdd 128 (Fin.natAdd 128 e))) :=
    Fin.sum_univ_add (a := 128) (b := 128) fun i : Fin 256 => f (Fin.castAdd 128 (Fin.castAdd 128 i))
  rw [h3, h2, h1]
  rfl

/-- Hidden unit `j` before the rectifier: the four segments' contributions, added left to right, plus the bias. -/
def hiddenPre (q k : Fin 128 → EReal) (W0 : Fin 512 → Fin 64 → EReal) (b0 : Fin 64 → EReal) (j : Fin 64) : EReal :=
  (((∑ e : Fin 128, q e * W0 (seg0 e) j + ∑ e : Fin 128, k e * W0 (seg1 e) j)
      + ∑ e : Fin 128, (q e - k e) * W0 (seg2 e) j)
    + ∑ e : Fin 128, (q e * k e) * W0 (seg3 e) j) + b0 j

/-- The score of one (query row, key row) pair: the rectified hidden units against `W1`, plus `b1`. -/
def rowScore (q k : Fin 128 → EReal) (W0 : Fin 512 → Fin 64 → EReal) (b0 : Fin 64 → EReal) (W1 : Fin 64 → EReal)
    (b1 : EReal) : EReal :=
  ∑ j : Fin 64, max (hiddenPre q k W0 b0 j) 0 * W1 j + b1

/-- `rowScore` depends on its rows and weights only through their entries. -/
theorem rowScore_congr {q q' k k' : Fin 128 → EReal} {W0 W0' : Fin 512 → Fin 64 → EReal} {b0 b0' : Fin 64 → EReal}
    {W1 W1' : Fin 64 → EReal} {b1 b1' : EReal} (hq : ∀ e, q e = q' e) (hk : ∀ e, k e = k' e)
    (hW0 : ∀ d j, W0 d j = W0' d j) (hb0 : ∀ j, b0 j = b0' j) (hW1 : ∀ j, W1 j = W1' j) (hb1 : b1 = b1') :
    rowScore q k W0 b0 W1 b1 = rowScore q' k' W0' b0' W1' b1' := by
  obtain rfl : q = q' := funext hq
  obtain rfl : k = k' := funext hk
  obtain rfl : W0 = W0' := funext fun d => funext (hW0 d)
  obtain rfl : b0 = b0' := funext hb0
  obtain rfl : W1 = W1' := funext hW1
  subst hb1
  rfl

/-- The whole result array as one function of the six argument arrays: entry `(b, t, 0)` is the score of the
    query's row `b` against the keys' row `(b, t)`. -/
def scores (q : (⟨3, ![1024, 1, 128]⟩ : Shape).Idx → EReal) (k : (⟨3, ![1024, 200, 128]⟩ : Shape).Idx → EReal)
    (W0 : (⟨2, ![512, 64]⟩ : Shape).Idx → EReal) (b0 : (⟨1, ![64]⟩ : Shape).Idx → EReal)
    (W1 : (⟨2, ![64, 1]⟩ : Shape).Idx → EReal) (b1 : (⟨1, ![1]⟩ : Shape).Idx → EReal) :
    (⟨3, ![1024, 200, 1]⟩ : Shape).Idx → EReal := fun i =>
  rowScore (fun e => q (ValueIdx.ix3 (⟨(i 0).val, (i 0).isLt⟩ : Fin 1024) (0 : Fin 1) e))
    (fun e => k (ValueIdx.ix3 (⟨(i 0).val, (i 0).isLt⟩ : Fin 1024) (⟨(i 1).val, (i 1).isLt⟩ : Fin 200) e))
    (fun d j => W0 (ValueIdx.ix2 d j)) (fun j => b0 (ValueIdx.ix1 j)) (fun j => W1 (ValueIdx.ix2 j (0 : Fin 1)))
    (b1 (ValueIdx.ix1 (0 : Fin 1)))

/-- `scores` at the index with coordinates `(b, t, o)`. -/
theorem scores_apply (q : (⟨3, ![1024, 1, 128]⟩ : Shape).Idx → EReal) (k : (⟨3, ![1024, 200, 128]⟩ : Shape).Idx → EReal)
    (W0 : (⟨2, ![512, 64]⟩ : Shape).Idx → EReal) (b0 : (⟨1, ![64]⟩ : Shape).Idx → EReal)
    (W1 : (⟨2, ![64, 1]⟩ : Shape).Idx → EReal) (b1 : (⟨1, ![1]⟩ : Shape).Idx → EReal)
    (b : Fin 1024) (t : Fin 200) (o : Fin 1) :
    scores q k W0 b0 W1 b1 (ValueIdx.ix3 b t o)
      = rowScore (fun e => q (ValueIdx.ix3 b (0 : Fin 1) e)) (fun e => k (ValueIdx.ix3 b t e))
          (fun d j => W0 (ValueIdx.ix2 d j)) (fun j => b0 (ValueIdx.ix1 j)) (fun j => W1 (ValueIdx.ix2 j (0 : Fin 1)))
          (b1 (ValueIdx.ix1 (0 : Fin 1))) := rfl

end Cert.Scorer

end
-- ==== Proof.KernelRow.lean ====
/-
  One row of what the kernel computes per block is `rowScore`.

  A block holds 32 batch elements.  The body flattens the block's 32 × 200 (batch, key) pairs into 6400 rows
  (pair `(bb, t)` is row `bb * 200 + t`), multiplies each of the four feature segments by its own 128 rows of
  `W0` and adds the four products left to right, adds `b0`, rectifies, multiplies by `W1` and adds `b1`.
  Changes of float format are the identity on the extended reals, and a product accumulated into zero is the
  plain sum over the contracted position.  Read at row `bb * 200 + t`, the result is therefore `rowScore` of the
  block's query row `bb`, its key row `(bb, t)` and the weights.
-/
import proofs.«102052_j36043365548306_1_alg».proof.Proof.Gen.KernelIdeal.Skeleton
import proofs.«102052_j36043365548306_1_alg».proof.Proof.RowScore
import Idealize.ShloMosaic.Lib.ValueIdx
import Idealize.ShloMosaic.Lib.ValueLayout
import Idealize.ShloMosaic.Lib.Pipeline.Value
import Idealize.ShloMosaic.PureOps.Ideal.Laws

noncomputable section

namespace Cert.Scorer.Kernel

open Cert.KernelIdeal Cert.KernelIdeal.Gen Idealize.ShloMosaic Idealize.ShloMosaic.ValueIdx Cert.Scorer

/-- The row of pair `(bb, t)` among the block's 32 × 200 pairs, row-major. -/
def row (bb : Fin 32) (t : Fin 200) : Fin 6400 :=
  ⟨bb.val * 200 + t.val, by have := bb.isLt; have := t.isLt; omega⟩

/-! ## Layout operations read at an index -/

section Layout

variable {α : Type}

/-- Flattening (batch, key, feature) to (row, feature) keeps each entry: row `bb * 200 + t` is pair `(bb, t)`. -/
theorem flat_apply (X : S32x200x128.Idx → α) (bb : Fin 32) (t : Fin 200) (e : Fin 128) :
    shapeCast S6400x128 X shapeCasts_S32x200x128_S6400x128 (ix2 (row bb t) e) = X (ix3 bb t e) :=
  shapeCast_apply X _ _ _ (by
    rw [Shape.rowMajor_val_three, Shape.rowMajor_val_two]
    show (bb.val * 200 + t.val) * 128 + e.val = (bb.val * 200 + t.val) * 128 + e.val
    rfl)

/-- The query row repeated along the key axis reads the query row, whatever the key. -/
theorem query_apply (P0 : S32x1x128.Idx → α) (bb : Fin 32) (t : Fin 200) (e : Fin 128) :
    broadcastTo S32x200x128 (shapeCast S32x1x128 P0 shapeCasts_S32x1x128_S32x1x128) broadcasts_S32x1x128_S32x200x128
      (ix3 bb t e) = P0 (ix3 bb (0 : Fin 1) e) := by
  rw [shapeCast_self]
  exact broadcastTo_apply P0 _ (ix3 bb t e) (ix3 bb (0 : Fin 1) e) (fun a => by
    match a with
    | ⟨0, _⟩ => show bb.val = if (32 : ℕ) = 1 then 0 else bb.val; rw [if_neg (by decide)]
    | ⟨1, _⟩ => show 0 = if (1 : ℕ) = 1 then 0 else t.val; rw [if_pos rfl]
    | ⟨2, _⟩ => show e.val = if (128 : ℕ) = 1 then 0 else e.val; rw [if_neg (by decide)])

/-- Rows 0–127 of the first-layer weights are the first segment's. -/
theorem w0_seg0 (X : S512x64.Idx → α) (e : Fin 128) (j : Fin 64) :
    extractStridedSlice S128x64 ![0, 0] X slices_S512x64_o0_0_S128x64 (ix2 e j) = X (ix2 (seg0 e) j) :=
  slice2_axis0_apply 0 X _ e j (seg0 e) (Nat.zero_add _).symm

/-- Rows 128–255 are the second segment's. -/
theorem w0_seg1 (X : S512x64.Idx → α) (e : Fin 128) (j : Fin 64) :
    extractStridedSlice S128x64 ![128, 0] X slices_S512x64_o128_0_S128x64 (ix2 e j) = X (ix2 (seg1 e) j) :=
  slice2_axis0_apply 128 X _ e j (seg1 e) rfl

/-- Rows 256–383 are the third segment's. -/
theorem w0_seg2 (X : S512x64.Idx → α) (e : Fin 128) (j : Fin 64) :
    extractStridedSlice S128x64 ![256, 0] X slices_S512x64_o256_0_S128x64 (ix2 e j) = X (ix2 (seg2 e) j) :=
  slice2_axis0_apply 256 X _ e j (seg2 e) rfl

/-- Rows 384–511 are the fourth segment's. -/
theorem w0_seg3 (X : S512x64.Idx → α) (e : Fin 128) (j : Fin 64) :
    extractStridedSlice S128x64 ![384, 0] X slices_S512x64_o384_0_S128x64 (ix2 e j) = X (ix2 (seg3 e) j) :=
  slice2_axis0_apply 384 X _ e j (seg3 e) rfl

/-- The first bias, as one row repeated over the 6400 rows, reads `b0 j` in column `j`. -/
theorem bias0_apply (P3 : S64.Idx → α) (r : Fin 6400) (j : Fin 64) :
    broadcastTo S6400x64 (shapeCast S1x64 P3 shapeCasts_S64_S1x64) broadcasts_S1x64_S6400x64 (ix2 r j) = P3 (ix1 j) :=
  (broadcastTo_1b_ab_apply _ _ r j).trans (shapeCast_a_1a_apply P3 _ 0 j)

/-- The last bias, one number repeated over the 6400 rows. -/
theorem bias1_apply (P5 : S1.Idx → α) (r : Fin 6400) :
    broadcastTo S6400x1 (shapeCast S1x1 P5 shapeCasts_S1_S1x1) broadcasts_S1x1_S6400x1 (ix2 r (0 : Fin 1)) = P5 (ix1 (0 : Fin 1)) :=
  (broadcastTo_1b_ab_apply _ _ r (0 : Fin 1)).trans (shapeCast_a_1a_apply P5 _ 0 0)

end Layout

/-! ## The two matrix products read at an index

The operand indices of a product contracting the left operand's columns against the right operand's rows: at result
index `(r, j)` and contracted position `e` they are `(r, e)` and `(e, j)`. -/

theorem lhsA_0 (i : S6400x64.Idx) (q : dot_S6400x128_S128x64_S6400x64_1_0_0_1_n_n.contr.Idx) :
    (dot_S6400x128_S128x64_S6400x64_1_0_0_1_n_n.lhsIdx i q 0).val = (i 0).val := by
  unfold DotDims.lhsIdx
  rw [dif_neg (show ¬(0 : Fin S6400x128.rank) ∈ dot_S6400x128_S128x64_S6400x64_1_0_0_1_n_n.lhsBatch by decide), dif_pos (show (0 : Fin S6400x128.rank) ∈ dot_S6400x128_S128x64_S6400x64_1_0_0_1_n_n.lhsNonContracting by decide)]
  rfl
theorem lhsA_1 (i : S6400x64.Idx) (q : dot_S6400x128_S128x64_S6400x64_1_0_0_1_n_n.contr.Idx) :
    (dot_S6400x128_S128x64_S6400x64_1_0_0_1_n_n.lhsIdx i q 1).val = (q ⟨0, by decide⟩).val :=
  dot_S6400x128_S128x64_S6400x64_1_0_0_1_n_n.lhsIdx_val_of_single rfl i q
theorem rhsA_0 (i : S6400x64.Idx) (q : dot_S6400x128_S128x64_S6400x64_1_0_0_1_n_n.contr.Idx) :
    (dot_S6400x128_S128x64_S6400x64_1_0_0_1_n_n.rhsIdx i q 0).val = (q ⟨0, by decide⟩).val :=
  dot_S6400x128_S128x64_S6400x64_1_0_0_1_n_n.rhsIdx_val_of_single rfl i q
theorem rhsA_1 (i : S6400x64.Idx) (q : dot_S6400x128_S128x64_S6400x64_1_0_0_1_n_n.contr.Idx) :
    (dot_S6400x128_S128x64_S6400x64_1_0_0_1_n_n.rhsIdx i q 1).val = (i 1).val := by
  unfold DotDims.rhsIdx
  rw [dif_neg (show ¬(1 : Fin S128x64.rank) ∈ dot_S6400x128_S128x64_S6400x64_1_0_0_1_n_n.rhsBatch by decide), dif_pos (show (1 : Fin S128x64.rank) ∈ dot_S6400x128_S128x64_S6400x64_1_0_0_1_n_n.rhsNonContracting by decide)]
  rfl

/-- A segment's product with its 128 rows of the weights, accumulated into zero, is the sum over the 128 positions. -/
theorem matmulA_apply (lhs : FVec Ideal S6400x128 .bf16) (rhs : FVec Ideal S128x64 .bf16) (r : Fin 6400) (j : Fin 64) :
    matmul dot_S6400x128_S128x64_S6400x64_1_0_0_1_n_n none lhs rhs (constant (F := Ideal) S6400x64 .f32 0x00000000#32) (ix2 r j)
      = ∑ e : Fin 128, lhs (ix2 r e) * rhs (ix2 e j) := by
  simp only [matmul]
  rw [Ideal.matmul_constant_zero_apply, ← Equiv.sum_comp (contrEquiv1 dot_S6400x128_S128x64_S6400x64_1_0_0_1_n_n 128 rfl rfl).symm]
  refine Finset.sum_congr rfl fun e _ => ?_
  have hk := contrEquiv1_symm_val dot_S6400x128_S128x64_S6400x64_1_0_0_1_n_n 128 rfl rfl e
  have el : dot_S6400x128_S128x64_S6400x64_1_0_0_1_n_n.lhsIdx (ix2 r j) ((contrEquiv1 dot_S6400x128_S128x64_S6400x64_1_0_0_1_n_n 128 rfl rfl).symm e) = ix2 r e := funext fun a => Fin.ext (by
    match a with
    | ⟨0, _⟩ => exact lhsA_0 _ _
    | ⟨1, _⟩ => exact (lhsA_1 _ _).trans hk)
  have er : dot_S6400x128_S128x64_S6400x64_1_0_0_1_n_n.rhsIdx (ix2 r j) ((contrEquiv1 dot_S6400x128_S128x64_S6400x64_1_0_0_1_n_n 128 rfl rfl).symm e) = ix2 e j := funext fun a => Fin.ext (by
    match a with
    | ⟨0, _⟩ => exact (rhsA_0 _ _).trans hk
    | ⟨1, _⟩ => exact rhsA_1 _ _)
  rw [el, er]

theorem lhsB_0 (i : S6400x1.Idx) (q : dot_S6400x64_S64x1_S6400x1_1_0_0_1_n_n.contr.Idx) :
    (dot_S6400x64_S64x1_S6400x1_1_0_0_1_n_n.lhsIdx i q 0).val = (i 0).val := by
  unfold DotDims.lhsIdx
  rw [dif_neg (show ¬(0 : Fin S6400x64.rank) ∈ dot_S6400x64_S64x1_S6400x1_1_0_0_1_n_n.lhsBatch by decide), dif_pos (show (0 : Fin S6400x64.rank) ∈ dot_S6400x64_S64x1_S6400x1_1_0_0_1_n_n.lhsNonContracting by decide)]
  rfl
theorem lhsB_1 (i : S6400x1.Idx) (q : dot_S6400x64_S64x1_S6400x1_1_0_0_1_n_n.contr.Idx) :
    (dot_S6400x64_S64x1_S6400x1_1_0_0_1_n_n.lhsIdx i q 1).val = (q ⟨0, by decide⟩).val :=
  dot_S6400x64_S64x1_S6400x1_1_0_0_1_n_n.lhsIdx_val_of_single rfl i q
theorem rhsB_0 (i : S6400x1.Idx) (q : dot_S6400x64_S64x1_S6400x1_1_0_0_1_n_n.contr.Idx) :
    (dot_S6400x64_S64x1_S6400x1_1_0_0_1_n_n.rhsIdx i q 0).val = (q ⟨0, by decide⟩).val :=
  dot_S6400x64_S64x1_S6400x1_1_0_0_1_n_n.rhsIdx_val_of_single rfl i q
theorem rhsB_1 (i : S6400x1.Idx) (q : dot_S6400x64_S64x1_S6400x1_1_0_0_1_n_n.contr.Idx) :
    (dot_S6400x64_S64x1_S6400x1_1_0_0_1_n_n.rhsIdx i q 1).val = (i 1).val := by
  unfold DotDims.rhsIdx
  rw [dif_neg (show ¬(1 : Fin S64x1.rank) ∈ dot_S6400x64_S64x1_S6400x1_1_0_0_1_n_n.rhsBatch by decide), dif_pos (show (1 : Fin S64x1.rank) ∈ dot_S6400x64_S64x1_S6400x1_1_0_0_1_n_n.rhsNonContracting by decide)]
  rfl

/-- The hidden units' product with `W1`, accumulated into zero, is the sum over the 64 units. -/
theorem matmulB_apply (lhs : FVec Ideal S6400x64 .bf16) (rhs : FVec Ideal S64x1 .bf16) (r : Fin 6400) (o : Fin 1) :
    matmul dot_S6400x64_S64x1_S6400x1_1_0_0_1_n_n none lhs rhs (constant (F := Ideal) S6400x1 .f32 0x00000000#32) (ix2 r o)
      = ∑ j : Fin 64, lhs (ix2 r j) * rhs (ix2 j o) := by
  simp only [matmul]
  rw [Ideal.matmul_constant_zero_apply, ← Equiv.sum_comp (contrEquiv1 dot_S6400x64_S64x1_S6400x1_1_0_0_1_n_n 64 rfl rfl).symm]
  refine Finset.sum_congr rfl fun j _ => ?_
  have hk := contrEquiv1_symm_val dot_S6400x64_S64x1_S6400x1_1_0_0_1_n_n 64 rfl rfl j
  have el : dot_S6400x64_S64x1_S6400x1_1_0_0_1_n_n.lhsIdx (ix2 r o) ((contrEquiv1 dot_S6400x64_S64x1_S6400x1_1_0_0_1_n_n 64 rfl rfl).symm j) = ix2 r j := funext fun a => Fin.ext (by
    match a with
    | ⟨0, _⟩ => exact lhsB_0 _ _
    | ⟨1, _⟩ => exact (lhsB_1 _ _).trans hk)
  have er : dot_S6400x64_S64x1_S6400x1_1_0_0_1_n_n.rhsIdx (ix2 r o) ((contrEquiv1 dot_S6400x64_S64x1_S6400x1_1_0_0_1_n_n 64 rfl rfl).symm j) = ix2 j o := funext fun a => Fin.ext (by
    match a with
    | ⟨0, _⟩ => exact (rhsB_0 _ _).trans hk
    | ⟨1, _⟩ => exact rhsB_1 _ _)
  rw [el, er]

/-! ## The payload's row -/

/-- The body's result at row `bb * 200 + t`, as a function of the six loaded blocks, is the score of query row `bb`
    against key row `(bb, t)`. -/
theorem pay_row (P0 : Vec Ideal S32x1x128 .f32) (P1 : Vec Ideal S32x200x128 .f32) (P2 : Vec Ideal S512x64 .f32)
    (P3 : Vec Ideal S64 .f32) (P4 : Vec Ideal S64x1 .f32) (P5 : Vec Ideal S1 .f32) (bb : Fin 32) (t : Fin 200) :
    k0_pay2 (F := Ideal) P0 P1 P2 P3 P4 P5 (ix2 (row bb t) (0 : Fin 1))
      = rowScore (fun e => P0 (ix3 bb (0 : Fin 1) e)) (fun e => P1 (ix3 bb t e)) (fun d j => P2 (ix2 d j))
          (fun j => P3 (ix1 j)) (fun j => P4 (ix2 j (0 : Fin 1))) (P5 (ix1 (0 : Fin 1))) := by
  unfold k0_pay2
  rw [addf_apply, matmulB_apply, bias1_apply]
  unfold rowScore
  refine congrArg₂ (· + ·) (Finset.sum_congr rfl fun j _ => ?_) rfl
  simp only [truncf_apply, maximumf_apply, addf_apply, broadcast_apply]
  rw [matmulA_apply, matmulA_apply, matmulA_apply, matmulA_apply, bias0_apply]
  unfold hiddenPre
  rw [Ideal.ofBits_def, Ideal.ofBits_zero_f32]
  refine congrArg₂ (· * ·) (congrArg₂ max (congrArg₂ (· + ·) (congrArg₂ (· + ·) (congrArg₂ (· + ·)
    (congrArg₂ (· + ·) ?_ ?_) ?_) ?_) rfl) rfl) rfl
  · refine Finset.sum_congr rfl fun e _ => ?_
    rw [truncf_apply, flat_apply, query_apply, w0_seg0, truncf_apply]
  · refine Finset.sum_congr rfl fun e _ => ?_
    rw [truncf_apply, flat_apply, w0_seg1, truncf_apply]
  · refine Finset.sum_congr rfl fun e _ => ?_
    rw [truncf_apply, flat_apply, subf_apply, query_apply, w0_seg2, truncf_apply]
  · refine Finset.sum_congr rfl fun e _ => ?_
    rw [truncf_apply, flat_apply, mulf_apply, query_apply, w0_seg3, truncf_apply]

end Cert.Scorer.Kernel

end
-- ==== Proof.KernelArray.lean ====
/-
  From the kernel's blocks to its result array.

  The grid has 32 points; point `t` works on batch elements `32 t … 32 t + 31`: it reads block `t` of the
  query and of the keys (whole along the other axes) and the four weight arrays whole, and writes block `t` of
  the result.  So batch element `bb` of block `t` is element `32 t + bb` of the batch, and what point `t`
  writes back is block `t` of `scores` of the argument arrays (`flushed_eq`, from the row-level `pay_row`).
  The 32 blocks tile the result (element `b` lies in block `b / 32`), so the array after the run is `scores`.
-/
import proofs.«102052_j36043365548306_1_alg».proof.Proof.KernelIdealValue
import proofs.«102052_j36043365548306_1_alg».proof.Proof.KernelRow

noncomputable section

namespace Cert.Scorer.KernelArray

open Cert.KernelIdeal Cert.KernelIdeal.Gen Cert.KernelIdeal.ValueP
open Idealize.ShloMosaic Idealize.ShloMosaic.ValueIdx Idealize.ShloMosaic.TcCoe Idealize.SL.Sem
open Idealize.ShloMosaic.Pipeline (Dat)
open Cert.Scorer Cert.Scorer.Kernel

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Where each window's block sits at grid point `t`: the query's, the keys' and the result's blocks move with the
    point along the batch axis; the weights are one block each. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

/-- Batch element `bb` of block `t`, in the whole batch. -/
def glob (t : Fin cfg0.N) (bb : Fin 32) : Fin 1024 :=
  ⟨t.val * 32 + bb.val, by have ht : t.val < 32 := t.isLt; have := bb.isLt; omega⟩

/-! ## An index of a block, in its array -/

theorem emb_query (t : Fin cfg0.N) (bb : Fin 32) (e : Fin 128) :
    ((cfg0.win 0).blk t).view.emb (ix3 bb (0 : Fin 1) e) = ix3 (glob t bb) (0 : Fin 1) e := by
  obtain ⟨a0, a1, a2, -⟩ := idx_facts t
  funext a; apply Fin.ext
  match a with
  | ⟨0, _⟩ => show win0_0.index t (0 : Fin 3) * 32 + 1 * bb.val = t.val * 32 + bb.val; omega
  | ⟨1, _⟩ => show win0_0.index t (1 : Fin 3) * 1 + 1 * 0 = 0; omega
  | ⟨2, _⟩ => show win0_0.index t (2 : Fin 3) * 128 + 1 * e.val = e.val; omega

theorem emb_key (t : Fin cfg0.N) (bb : Fin 32) (tt : Fin 200) (e : Fin 128) :
    ((cfg0.win 1).blk t).view.emb (ix3 bb tt e) = ix3 (glob t bb) tt e := by
  obtain ⟨-, -, -, a0, a1, a2, -⟩ := idx_facts t
  funext a; apply Fin.ext
  match a with
  | ⟨0, _⟩ => show win0_1.index t (0 : Fin 3) * 32 + 1 * bb.val = t.val * 32 + bb.val; omega
  | ⟨1, _⟩ => show win0_1.index t (1 : Fin 3) * 200 + 1 * tt.val = tt.val; omega
  | ⟨2, _⟩ => show win0_1.index t (2 : Fin 3) * 128 + 1 * e.val = e.val; omega

theorem emb_w0 (t : Fin cfg0.N) (d : Fin 512) (j : Fin 64) :
    ((cfg0.win 2).blk t).view.emb (ix2 d j) = ix2 d j := by
  obtain ⟨-, -, -, -, -, -, a0, a1, -⟩ := idx_facts t
  funext a; apply Fin.ext
  match a with
  | ⟨0, _⟩ => show win0_2.index t (0 : Fin 2) * 512 + 1 * d.val = d.val; omega
  | ⟨1, _⟩ => show win0_2.index t (1 : Fin 2) * 64 + 1 * j.val = j.val; omega

theorem emb_b0 (t : Fin cfg0.N) (j : Fin 64) : ((cfg0.win 3).blk t).view.emb (ix1 j) = ix1 j := by
  obtain ⟨-, -, -, -, -, -, -, -, a0, -⟩ := idx_facts t
  funext a; apply Fin.ext
  match a with
  | ⟨0, _⟩ => show win0_3.index t (0 : Fin 1) * 64 + 1 * j.val = j.val; omega

theorem emb_w1 (t : Fin cfg0.N) (j : Fin 64) : ((cfg0.win 4).blk t).view.emb (ix2 j (0 : Fin 1)) = ix2 j (0 : Fin 1) := by
  obtain ⟨-, -, -, -, -, -, -, -, -, a0, a1, -⟩ := idx_facts t
  funext a; apply Fin.ext
  match a with
  | ⟨0, _⟩ => show win0_4.index t (0 : Fin 2) * 64 + 1 * j.val = j.val; omega
  | ⟨1, _⟩ => show win0_4.index t (1 : Fin 2) * 1 + 1 * 0 = 0; omega

theorem emb_b1 (t : Fin cfg0.N) : ((cfg0.win 5).blk t).view.emb (ix1 (0 : Fin 1)) = ix1 (0 : Fin 1) := by
  obtain ⟨-, -, -, -, -, -, -, -, -, -, -, a0, -⟩ := idx_facts t
  funext a; apply Fin.ext
  match a with
  | ⟨0, _⟩ => show win0_5.index t (0 : Fin 1) * 1 + 1 * 0 = 0; omega

theorem emb_out (t : Fin cfg0.N) (bb : Fin 32) (tt : Fin 200) :
    ((cfg0.win 6).blk t).view.emb (ix3 bb tt (0 : Fin 1)) = ix3 (glob t bb) tt (0 : Fin 1) := by
  obtain ⟨-, -, -, -, -, -, -, -, -, -, -, -, a0, a1, a2⟩ := idx_facts t
  funext a; apply Fin.ext
  match a with
  | ⟨0, _⟩ => show win0_6.index t (0 : Fin 3) * 32 + 1 * bb.val = t.val * 32 + bb.val; omega
  | ⟨1, _⟩ => show win0_6.index t (1 : Fin 3) * 200 + 1 * tt.val = tt.val; omega
  | ⟨2, _⟩ => show win0_6.index t (2 : Fin 3) * 1 + 1 * 0 = 0; omega

/-! ## The blocks the body loads, read in their arrays -/

theorem blk_query (c : Dev nD) (t : Fin cfg0.N) (bb : Fin 32) (e : Fin 128) :
    iblk m c 0 t (ix3 bb (0 : Fin 1) e) = V m c main_arg0 (ix3 (glob t bb) (0 : Fin 1) e) :=
  congrArg (V m c main_arg0) (emb_query t bb e)
theorem blk_key (c : Dev nD) (t : Fin cfg0.N) (bb : Fin 32) (tt : Fin 200) (e : Fin 128) :
    iblk m c 1 t (ix3 bb tt e) = V m c main_arg1 (ix3 (glob t bb) tt e) :=
  congrArg (V m c main_arg1) (emb_key t bb tt e)
theorem blk_w0 (c : Dev nD) (t : Fin cfg0.N) (d : Fin 512) (j : Fin 64) :
    iblk m c 2 t (ix2 d j) = V m c main_arg2 (ix2 d j) :=
  congrArg (V m c main_arg2) (emb_w0 t d j)
theorem blk_b0 (c : Dev nD) (t : Fin cfg0.N) (j : Fin 64) : iblk m c 3 t (ix1 j) = V m c main_arg3 (ix1 j) :=
  congrArg (V m c main_arg3) (emb_b0 t j)
theorem blk_w1 (c : Dev nD) (t : Fin cfg0.N) (j : Fin 64) :
    iblk m c 4 t (ix2 j (0 : Fin 1)) = V m c main_arg4 (ix2 j (0 : Fin 1)) :=
  congrArg (V m c main_arg4) (emb_w1 t j)
theorem blk_b1 (c : Dev nD) (t : Fin cfg0.N) : iblk m c 5 t (ix1 (0 : Fin 1)) = V m c main_arg5 (ix1 (0 : Fin 1)) :=
  congrArg (V m c main_arg5) (emb_b1 t)

/-! ## What a point writes back -/

/-- The block the body leaves, at `(bb, tt, 0)`, for any loaded blocks: the score of query row `bb` against key
    row `(bb, tt)`. -/
theorem block_score (P0 : Vec Ideal S32x1x128 .f32) (P1 : Vec Ideal S32x200x128 .f32) (P2 : Vec Ideal S512x64 .f32)
    (P3 : Vec Ideal S64 .f32) (P4 : Vec Ideal S64x1 .f32) (P5 : Vec Ideal S1 .f32) (bb : Fin 32) (tt : Fin 200) :
    E6 (F := Ideal) P0 P1 P2 P3 P4 P5 (ix3 bb tt (0 : Fin 1))
      = rowScore (fun e => P0 (ix3 bb (0 : Fin 1) e)) (fun e => P1 (ix3 bb tt e)) (fun d j => P2 (ix2 d j))
          (fun j => P3 (ix1 j)) (fun j => P4 (ix2 j (0 : Fin 1))) (P5 (ix1 (0 : Fin 1))) := by
  have hix : ix6_0 (ix3 bb tt (0 : Fin 1)) = ix2 (row bb tt) (0 : Fin 1) :=
    funext fun a => Fin.ext (by match a with | ⟨0, _⟩ => rfl | ⟨1, _⟩ => rfl)
  show k0_pay2 P0 P1 P2 P3 P4 P5 (ix6_0 (ix3 bb tt (0 : Fin 1))) = _
  rw [hix]
  exact pay_row P0 P1 P2 P3 P4 P5 bb tt

/-- The result array as `scores` of the argument arrays as the region finds them. -/
abbrev result (c : Dev nD) : S1024x200x1.Idx → EReal :=
  scores (V m c main_arg0) (V m c main_arg1) (V m c main_arg2) (V m c main_arg3) (V m c main_arg4) (V m c main_arg5)

/-- WHAT POINT `t` WRITES BACK is block `t` of `scores` of the argument arrays. -/
theorem flushed_eq (c : Dev nD) (t : Fin cfg0.N) :
    (dats m 0 c).flushed 6 t = ((cfg0.win 6).blk t).view.read (Elt Ideal) (result m c) := by
  rw [flushed6]
  unfold out0_6
  funext y
  obtain ⟨bb, tt, o, rfl⟩ : ∃ (bb : Fin 32) (tt : Fin 200) (o : Fin 1), y = ix3 bb tt o := ⟨y 0, y 1, y 2, eq_ix3 y⟩
  have ho : o = 0 := Subsingleton.elim _ _
  subst ho
  show (View.canon ([⟨r0_6, k0_pay1 (k0_pay2 (View.ld (iblk m c 0 t) r0_0) (View.ld (iblk m c 1 t) r0_1) (View.ld (iblk m c 2 t) r0_2)
        (View.ld (iblk m c 3 t) r0_3) (View.ld (iblk m c 4 t) r0_4) (View.ld (iblk m c 5 t) r0_5))⟩] :
          List (View.Piece (Elt Ideal) S32x200x1 .f32)) : Vec Ideal S32x200x1 .f32) (ix3 bb tt (0 : Fin 1))
      = result m c (((cfg0.win 6).blk t).view.emb (ix3 bb tt (0 : Fin 1)))
  rw [emb_out]
  refine Eq.trans ?_ (scores_apply (V m c main_arg0) (V m c main_arg1) (V m c main_arg2) (V m c main_arg3) (V m c main_arg4)
    (V m c main_arg5) (glob t bb) tt (0 : Fin 1)).symm
  refine (canon6_eq (F := Ideal) (View.ld (iblk m c 0 t) r0_0) (View.ld (iblk m c 1 t) r0_1) (View.ld (iblk m c 2 t) r0_2)
    (View.ld (iblk m c 3 t) r0_3) (View.ld (iblk m c 4 t) r0_4) (View.ld (iblk m c 5 t) r0_5) (ix3 bb tt (0 : Fin 1))).trans ?_
  simp only [View.ld_unit_zero (S := S32x1x128) hz3, View.ld_unit_zero (S := S32x200x128) hz3,
    View.ld_unit_zero (S := S512x64) hz2, View.ld_unit_zero (S := S64) hz1, View.ld_unit_zero (S := S64x1) hz2,
    View.ld_unit_zero (S := S1) hz1]
  refine (block_score (iblk m c 0 t) (iblk m c 1 t) (iblk m c 2 t) (iblk m c 3 t) (iblk m c 4 t) (iblk m c 5 t) bb tt).trans ?_
  exact rowScore_congr (fun e => blk_query m c t bb e) (fun e => blk_key m c t bb tt e) (fun d j => blk_w0 m c t d j)
    (fun j => blk_b0 m c t j) (fun j => blk_w1 m c t j) (blk_b1 m c t)

/-! ## The blocks tile the result -/

/-- An index of the result is in point `t`'s block iff each coordinate is in the block's range on its axis. -/
theorem mem_blk (t : Fin cfg0.N) (i : S1024x200x1.Idx) :
    i ∈ ((cfg0.win 6).blk t).view.set ↔ ∀ a : Fin 3, win0_6.index t a * S32x200x1.size a ≤ (i a).val
      ∧ (i a).val < win0_6.index t a * S32x200x1.size a + S32x200x1.size a := by
  show i ∈ ((View.whole main_v0).slice (win0_6.rect t)).set ↔ _
  rw [View.set_slice_whole, Rect.mem_set_unit]
  exact Iff.rfl

/-- Every entry of the result lies in some point's block: batch element `b` in block `b / 32`. -/
theorem cover (i : S1024x200x1.Idx) :
    ∃ t : Fin cfg0.N, (cfg0.win 6).flush t = true ∧ i ∈ ((cfg0.win 6).blk t).view.set := by
  have hi0 : (i 0).val < 1024 := (i 0).isLt
  have hi1 : (i 1).val < 200 := (i 1).isLt
  have hi2 : (i 2).val < 1 := (i 2).isLt
  obtain ⟨t, ht⟩ : ∃ t : Fin cfg0.N, t.val = (i 0).val / 32 :=
    ⟨⟨(i 0).val / 32, by show (i 0).val / 32 < 32; omega⟩, rfl⟩
  obtain ⟨-, -, -, -, -, -, -, -, -, -, -, -, a0, a1, a2⟩ := idx_facts t
  refine ⟨t, flush0_6 t, ?_⟩
  rw [mem_blk]
  intro a
  match a with
  | ⟨0, _⟩ =>
    show win0_6.index t (0 : Fin 3) * 32 ≤ (i 0).val ∧ (i 0).val < win0_6.index t (0 : Fin 3) * 32 + 32
    omega
  | ⟨1, _⟩ =>
    show win0_6.index t (1 : Fin 3) * 200 ≤ (i 1).val ∧ (i 1).val < win0_6.index t (1 : Fin 3) * 200 + 200
    omega
  | ⟨2, _⟩ =>
    show win0_6.index t (2 : Fin 3) * 1 ≤ (i 2).val ∧ (i 2).val < win0_6.index t (2 : Fin 3) * 1 + 1
    omega

/-! ## The array after the run, and the run -/

/-- THE RESULT ARRAY after the run is `scores` of the argument arrays. -/
theorem final (c : Dev nD) : (dats m 0 c).arrAt 6 cfg0.N = result m c :=
  (dats m 0 c).arrAt_eq_of_cover 6 (result m c) (fun t _ => flushed_eq m c t) cover

/-- Every weakly fair execution of the kernel's program terminates with the result array at `scores` of the
    arguments and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Scorer.KernelArray

end
-- ==== Proof.RefScore.lean ====
/-
  The reference, entry by entry, is `rowScore`.

  The reference lays the four feature segments end to end along the last axis and contracts the 512 positions
  against `W0` in one sum.  Read at position `segC e` the concatenation is its piece `C` at `e`; so, by
  `sum_segments`, the one 512-term sum is the four 128-term sums of `hiddenPre`.  The bias, the rectifier, the
  second contraction (over the 64 hidden units) and the last bias are then read index by index.
-/
import proofs.«102052_j36043365548306_1_alg».proof.Proof.Gen.ReferenceIdeal.Read
import proofs.«102052_j36043365548306_1_alg».proof.Proof.RowScore

noncomputable section

namespace Cert.Scorer.Ref

open Cert.ReferenceIdeal Cert.ReferenceIdeal.Gen Cert.ReferenceIdeal.Read
open Idealize.ShloMosaic Idealize.ShloMosaic.ValueIdx Cert.Scorer

/-! ## The concatenation, segment by segment -/

section Cat

variable {α : Type} (A0 A1 A2 A3 : S1024x200x128.Idx → α)

/-- Four arrays of one shape laid end to end along the last axis. -/
abbrev cat4 : S1024x200x512.Idx → α :=
  concatenate S1024x200x512 2 [⟨S1024x200x128, A0⟩, ⟨S1024x200x128, A1⟩, ⟨S1024x200x128, A2⟩, ⟨S1024x200x128, A3⟩]
    concatenates_S1024x200x128_S1024x200x128_S1024x200x128_S1024x200x128_S1024x200x512_d2

/-- Off the joined axis an index of a piece and the index of the whole under it have the same coordinates. -/
theorem off_axis (b : Fin 1024) (t : Fin 200) (e : Fin 128) (d : Fin 512) :
    ∀ a : Fin S1024x200x128.rank, a.cast (rfl : S1024x200x128.rank = S1024x200x512.rank) ≠ (2 : Fin 3) →
      ((ix3 b t e : S1024x200x128.Idx) a).val = ((ix3 b t d : S1024x200x512.Idx) (a.cast rfl)).val := by
  intro a ha
  match a with
  | ⟨0, _⟩ => rfl
  | ⟨1, _⟩ => rfl
  | ⟨2, _⟩ => exact absurd rfl ha

theorem cat4_seg0 (b : Fin 1024) (t : Fin 200) (e : Fin 128) : cat4 A0 A1 A2 A3 (ix3 b t (seg0 e)) = A0 (ix3 b t e) :=
  concatenate_apply_piece (2 : Fin 3) _ _ (ix3 b t (seg0 e)) 0 (by show (0 : ℕ) < 4; omega) S1024x200x128 A0 rfl rfl 0 rfl (ix3 b t e)
    (off_axis b t e (seg0 e)) (by show 0 + e.val = e.val; omega)

theorem cat4_seg1 (b : Fin 1024) (t : Fin 200) (e : Fin 128) : cat4 A0 A1 A2 A3 (ix3 b t (seg1 e)) = A1 (ix3 b t e) :=
  concatenate_apply_piece (2 : Fin 3) _ _ (ix3 b t (seg1 e)) 1 (by show (1 : ℕ) < 4; omega) S1024x200x128 A1 rfl rfl 128 rfl (ix3 b t e)
    (off_axis b t e (seg1 e)) (by show 128 + e.val = 128 + e.val; rfl)

theorem cat4_seg2 (b : Fin 1024) (t : Fin 200) (e : Fin 128) : cat4 A0 A1 A2 A3 (ix3 b t (seg2 e)) = A2 (ix3 b t e) :=
  concatenate_apply_piece (2 : Fin 3) _ _ (ix3 b t (seg2 e)) 2 (by show (2 : ℕ) < 4; omega) S1024x200x128 A2 rfl rfl 256 rfl (ix3 b t e)
    (off_axis b t e (seg2 e)) (by show 256 + e.val = 256 + e.val; rfl)

theorem cat4_seg3 (b : Fin 1024) (t : Fin 200) (e : Fin 128) : cat4 A0 A1 A2 A3 (ix3 b t (seg3 e)) = A3 (ix3 b t e) :=
  concatenate_apply_piece (2 : Fin 3) _ _ (ix3 b t (seg3 e)) 3 (by show (3 : ℕ) < 4; omega) S1024x200x128 A3 rfl rfl 384 rfl (ix3 b t e)
    (off_axis b t e (seg3 e)) (by show 384 + e.val = 384 + e.val; rfl)

end Cat

/-! ## The features, the hidden units and the score -/

section Score

variable (x0 : (⟨S1024x1x128, .f32⟩ : BufTy).Contents (Elt Ideal)) (x1 : (⟨S1024x200x128, .f32⟩ : BufTy).Contents (Elt Ideal))
  (x2 : (⟨S512x64, .f32⟩ : BufTy).Contents (Elt Ideal)) (x3 : (⟨S64, .f32⟩ : BufTy).Contents (Elt Ideal))
  (x4 : (⟨S64x1, .f32⟩ : BufTy).Contents (Elt Ideal)) (x5 : (⟨S1, .f32⟩ : BufTy).Contents (Elt Ideal))

/-- The first contraction's operand indices at hidden unit `j` and feature position `d`. -/
theorem lidx4 (b : Fin 1024) (t : Fin 200) (j : Fin 64) (d : Fin 512) : lidx_main_v4 (ix3 b t j) d = ix3 b t d :=
  funext fun a => Fin.ext (by match a with | ⟨0, _⟩ => rfl | ⟨1, _⟩ => rfl | ⟨2, _⟩ => rfl)
theorem ridx4 (b : Fin 1024) (t : Fin 200) (j : Fin 64) (d : Fin 512) : ridx_main_v4 (ix3 b t j) d = ix2 d j :=
  funext fun a => Fin.ext (by match a with | ⟨0, _⟩ => rfl | ⟨1, _⟩ => rfl)
/-- The query repeated along the key axis reads the query row. -/
theorem query_idx (b : Fin 1024) (t : Fin 200) (e : Fin 128) : idx_main_v0 (ix3 b t e) = ix3 b (0 : Fin 1) e :=
  funext fun a => Fin.ext (by match a with | ⟨0, _⟩ => rfl | ⟨1, _⟩ => rfl | ⟨2, _⟩ => rfl)
theorem query_at (b : Fin 1024) (t : Fin 200) (e : Fin 128) :
    val_main_v0 (F := Ideal) x0 (ix3 b t e) = x0 (ix3 b (0 : Fin 1) e) :=
  (val_main_v0_apply x0 _).trans (congrArg x0 (query_idx b t e))

/-- The 512 features of pair `(b, t)`, segment by segment: the query row, the key row, their difference, their product. -/
theorem feat0 (b : Fin 1024) (t : Fin 200) (e : Fin 128) :
    val_main_v3 (F := Ideal) x0 x1 (ix3 b t (seg0 e)) = x0 (ix3 b (0 : Fin 1) e) :=
  (cat4_seg0 (val_main_v0 x0) x1 (val_main_v1 x0 x1) (val_main_v2 x0 x1) b t e).trans (query_at x0 b t e)
theorem feat1 (b : Fin 1024) (t : Fin 200) (e : Fin 128) :
    val_main_v3 (F := Ideal) x0 x1 (ix3 b t (seg1 e)) = x1 (ix3 b t e) :=
  cat4_seg1 (val_main_v0 x0) x1 (val_main_v1 x0 x1) (val_main_v2 x0 x1) b t e
theorem feat2 (b : Fin 1024) (t : Fin 200) (e : Fin 128) :
    val_main_v3 (F := Ideal) x0 x1 (ix3 b t (seg2 e)) = x0 (ix3 b (0 : Fin 1) e) - x1 (ix3 b t e) :=
  (cat4_seg2 (val_main_v0 x0) x1 (val_main_v1 x0 x1) (val_main_v2 x0 x1) b t e).trans
    (congrArg (· - x1 (ix3 b t e)) (query_at x0 b t e))
theorem feat3 (b : Fin 1024) (t : Fin 200) (e : Fin 128) :
    val_main_v3 (F := Ideal) x0 x1 (ix3 b t (seg3 e)) = x0 (ix3 b (0 : Fin 1) e) * x1 (ix3 b t e) :=
  (cat4_seg3 (val_main_v0 x0) x1 (val_main_v1 x0 x1) (val_main_v2 x0 x1) b t e).trans
    (congrArg (· * x1 (ix3 b t e)) (query_at x0 b t e))

/-- Hidden unit `j` of pair `(b, t)` before the rectifier: the one 512-term sum, split into its four segments. -/
theorem ref_hidden (b : Fin 1024) (t : Fin 200) (j : Fin 64) :
    val_main_v7 (F := Ideal) x0 x1 x2 x3 (ix3 b t j)
      = hiddenPre (fun e => x0 (ix3 b (0 : Fin 1) e)) (fun e => x1 (ix3 b t e)) (fun d j => x2 (ix2 d j))
          (fun j => x3 (ix1 j)) j := by
  rw [val_main_v7_apply, val_main_v4_apply, val_main_v6_apply, val_main_v5_apply, sum_segments, Ideal.addf_def]
  unfold hiddenPre
  refine congrArg₂ (· + ·) (congrArg₂ (· + ·) (congrArg₂ (· + ·) (congrArg₂ (· + ·) ?_ ?_) ?_) ?_) ?_
  · exact Finset.sum_congr rfl fun e _ => by rw [lidx4, ridx4, feat0]
  · exact Finset.sum_congr rfl fun e _ => by rw [lidx4, ridx4, feat1]
  · exact Finset.sum_congr rfl fun e _ => by rw [lidx4, ridx4, feat2]
  · exact Finset.sum_congr rfl fun e _ => by rw [lidx4, ridx4, feat3]
  · exact congrArg x3 (funext fun a => Fin.ext (by match a with | ⟨0, _⟩ => rfl))

/-- The second contraction's operand indices at pair `(b, t)` and hidden unit `j`. -/
theorem lidx9 (b : Fin 1024) (t : Fin 200) (o : Fin 1) (j : Fin 64) : lidx_main_v9 (ix3 b t o) j = ix3 b t j :=
  funext fun a => Fin.ext (by match a with | ⟨0, _⟩ => rfl | ⟨1, _⟩ => rfl | ⟨2, _⟩ => rfl)
theorem ridx9 (b : Fin 1024) (t : Fin 200) (o : Fin 1) (j : Fin 64) : ridx_main_v9 (ix3 b t o) j = ix2 j o :=
  funext fun a => Fin.ext (by match a with | ⟨0, _⟩ => rfl | ⟨1, _⟩ => rfl)

/-- THE REFERENCE at pair `(b, t)` is `rowScore` of the query's row `b`, the keys' row `(b, t)` and the weights. -/
theorem ref_score (b : Fin 1024) (t : Fin 200) :
    val_main_v12 (F := Ideal) x0 x1 x2 x3 x4 x5 (ix3 b t (0 : Fin 1))
      = rowScore (fun e => x0 (ix3 b (0 : Fin 1) e)) (fun e => x1 (ix3 b t e)) (fun d j => x2 (ix2 d j))
          (fun j => x3 (ix1 j)) (fun j => x4 (ix2 j (0 : Fin 1))) (x5 (ix1 (0 : Fin 1))) := by
  rw [val_main_v12_apply, val_main_v9_apply, val_main_v11_apply, val_main_v10_apply, Ideal.addf_def]
  unfold rowScore
  refine congrArg₂ (· + ·) (Finset.sum_congr rfl fun j _ => ?_)
    (congrArg x5 (funext fun a => Fin.ext (by match a with | ⟨0, _⟩ => rfl)))
  rw [lidx9, ridx9, val_main_v8_apply, ref_hidden, val_main_call0_v0_apply, val_main_call0_cst_apply, Ideal.maximumf_def,
    Ideal.ofBits_def, Ideal.ofBits_zero_f32]

/-- THE REFERENCE'S RESULT ARRAY is `scores` of its six arguments. -/
theorem ref_scores : val_main_v12 (F := Ideal) x0 x1 x2 x3 x4 x5 = scores x0 x1 x2 x3 x4 x5 := by
  funext i
  obtain ⟨b, t, o, rfl⟩ : ∃ (b : Fin 1024) (t : Fin 200) (o : Fin 1), i = ix3 b t o := ⟨i 0, i 1, i 2, eq_ix3 i⟩
  have ho : o = 0 := Subsingleton.elim _ _
  subst ho
  exact (ref_score x0 x1 x2 x3 x4 x5 b t).trans (scores_apply x0 x1 x2 x3 x4 x5 b t 0).symm

end Score

end Cert.Scorer.Ref

end
-- ==== Proof.lean ====
/-
  The attention scorer: kernel against reference, over the extended reals.

  Both programs compute, for every batch element `b` and key `t`, the score
  `∑ j, max (∑ d, x d * W0 d j + b0 j) 0 * W1 j + b1`, where the 512 features `x` of the pair are the query row,
  the key row, their difference and their product, laid end to end.  The reference forms the 512 features and
  contracts them against `W0` in one sum; the kernel multiplies each 128-wide segment by its own 128 rows of
  `W0` and adds the four products.  A sum over 512 positions is the sum of its four quarters in any commutative
  monoid, so the two agree on all extended reals and the finiteness of the inputs is never used.  The kernel's
  changes of float format are the identity on the extended reals, and its products accumulate into zero.

  `Cert.Scorer.scores` is the result array as one function of the six arguments; the kernel's run ends with its
  result at `scores` (the blocks of the 32 grid points tile the array), and so does the reference's.  The three
  frames are the generated frame runs; the idealization's ledger is empty.
-/
import proofs.«102052_j36043365548306_1_alg».proof.Defs
import proofs.«102052_j36043365548306_1_alg».proof.Proof.Gen.Kernel
import proofs.«102052_j36043365548306_1_alg».proof.Proof.Gen.Kernel.Skeleton
import proofs.«102052_j36043365548306_1_alg».proof.Proof.Gen.Kernel.Launch
import proofs.«102052_j36043365548306_1_alg».proof.Proof.Gen.Kernel.Points
import proofs.«102052_j36043365548306_1_alg».proof.Proof.Gen.Kernel.Frame
import proofs.«102052_j36043365548306_1_alg».proof.Proof.Gen.KernelIdeal
import proofs.«102052_j36043365548306_1_alg».proof.Proof.Gen.KernelIdeal.Skeleton
import proofs.«102052_j36043365548306_1_alg».proof.Proof.Gen.KernelIdeal.Launch
import proofs.«102052_j36043365548306_1_alg».proof.Proof.Gen.KernelIdeal.Points
import proofs.«102052_j36043365548306_1_alg».proof.Proof.Gen.KernelIdeal.Frame
import proofs.«102052_j36043365548306_1_alg».proof.Proof.Gen.ReferenceIdeal
import proofs.«102052_j36043365548306_1_alg».proof.Proof.Gen.Pre_finite_inputs
import proofs.«102052_j36043365548306_1_alg».proof.Proof.Gen.ReferenceIdeal.Run
import proofs.«102052_j36043365548306_1_alg».proof.Proof.Gen.ReferenceIdeal.Read
import proofs.«102052_j36043365548306_1_alg».proof.Proof.KernelArray
import proofs.«102052_j36043365548306_1_alg».proof.Proof.RefScore
import Idealize.ShloMosaic.Adequacy
import Idealize.ShloMosaic.Init

noncomputable section

namespace Cert.Proof

open Idealize.ShloMosaic Idealize.ShloMosaic.TcCoe Idealize.SL.Sem

namespace ScorerClaims

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite was applied when the kernel was idealized. -/
theorem preserves : Cert.preserves_Kernel_KernelIdeal := trivial

/-- From memories that agree on the six arguments, both programs end with their result at `scores` of the
    arguments. -/
theorem algebraic : Cert.algebraic_KernelIdeal_ReferenceIdeal := by
  intro m ρ m' ρ' _ hagree
  refine ⟨_, Cert.Scorer.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Scorer.Ref.ref_scores, (hagree c).1, (hagree c).2.1, (hagree c).2.2.1,
    (hagree c).2.2.2.1, (hagree c).2.2.2.2.1, (hagree c).2.2.2.2.2]

end ScorerClaims

theorem claim : Cert.Claim := ⟨Cert.Kernel.Gen.facts, Cert.KernelIdeal.Gen.facts, Cert.ReferenceIdeal.Gen.facts, Cert.Pre_finite_inputs.Gen.facts,
  ScorerClaims.frame_kernel, ScorerClaims.frame_kernelIdeal, ScorerClaims.frame_referenceIdeal, ScorerClaims.preserves,
  ScorerClaims.algebraic⟩

end Cert.Proof

end
